-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x16 : Shape := ⟨2, ![4000000, 16]⟩
abbrev S_ : Shape := ⟨0, ![]⟩

class Facts : Prop where
  bcast_S_S4000000x16 : S_.BroadcastsInDim S4000000x16 (![] : Fin 0 → Fin S4000000x16.rank)
  reducesTo_S4000000x16_S_d0_1 : S4000000x16.ReducesTo [0, 1] S_
  h_S_ : 0 < S_.numel

variable [Facts]

def fn {F : FTy → Type} [FloatOps F] (main_arg0 : FVec F S4000000x16 .f32) : IVec S_ 1 :=
  let main_v0 : FVec F S4000000x16 .f32 := Host.absf main_arg0
  let main_cst : FVec F S_ .f32 := constant S_ .f32 0x7F800000#32
  let main_v1 : FVec F S4000000x16 .f32 := broadcastInDim S4000000x16 ![] bcast_S_S4000000x16 main_cst
  let main_v2 : IVec S4000000x16 1 := cmpf .olt main_v0 main_v1
  let main_c : IVec S_ 1 := constantI S_ 1 1#1
  let main_v3 : IVec S_ 1 := (fun x v => Host.reduce IntOp.andi x v reducesTo_S4000000x16_S_d0_1 h_S_) main_v2 main_c
  main_v3
-- ==== Kernel.lean ====
abbrev S4000000x16 : Shape := ⟨2, ![4000000, 16]⟩
abbrev S4000000x15 : Shape := ⟨2, ![4000000, 15]⟩
abbrev S8000x16 : Shape := ⟨2, ![8000, 16]⟩
abbrev S8000x15 : Shape := ⟨2, ![8000, 15]⟩
abbrev S8000x4 : Shape := ⟨2, ![8000, 4]⟩
abbrev S8000 : Shape := ⟨1, ![8000]⟩
abbrev S8000x1 : Shape := ⟨2, ![8000, 1]⟩
abbrev S8000x5 : Shape := ⟨2, ![8000, 5]⟩
abbrev S8000x10 : Shape := ⟨2, ![8000, 10]⟩

abbrev nBuf : Space → Nat
  | .hbm => 2
  | .vmem => 4
  | .smem => 0
  | _ => 0

abbrev bufTy : (tb : Table) → Fin (tcTables nBuf tb) → BufTy
  | .hbm, ⟨0, _⟩ => ⟨S4000000x16, .f32⟩
  | .hbm, ⟨1, _⟩ => ⟨S4000000x15, .f32⟩
  | .local _ .vmem, ⟨0, _⟩ => ⟨S8000x16, .f32⟩
  | .local _ .vmem, ⟨1, _⟩ => ⟨S8000x16, .f32⟩
  | .local _ .vmem, ⟨2, _⟩ => ⟨S8000x15, .f32⟩
  | .local _ .vmem, ⟨3, _⟩ => ⟨S8000x15, .f32⟩
  | _, _ => ⟨S4000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8000x16_S8000x16_0_0 : ∀ a, (![0, 0] : Fin 2 → Nat) a + S8000x16.size a ≤ S8000x16.size a
  h_S8000x16 : 0 < S8000x16.numel
  slices_S8000x16_o0_10_S8000x4 : S8000x16.Slices ![0, 10] S8000x4
  reduces_S8000x4_S8000 : S8000x4.Reduces [1] S8000
  shapeCasts_S8000_S8000x1 : S8000.ShapeCasts S8000x1
  broadcasts_S8000x1_S8000x4 : S8000x1.Broadcasts S8000x4
  slices_S8000x4_o0_0_S8000x1 : S8000x4.Slices ![0, 0] S8000x1
  slices_S8000x4_o0_1_S8000x1 : S8000x4.Slices ![0, 1] S8000x1
  slices_S8000x4_o0_2_S8000x1 : S8000x4.Slices ![0, 2] S8000x1
  slices_S8000x4_o0_3_S8000x1 : S8000x4.Slices ![0, 3] S8000x1
  concatenates_S8000x1_S8000x1_S8000x1_S8000x1_S8000x1_S8000x5_d1 : Shape.Concatenates [S8000x1, S8000x1, S8000x1, S8000x1, S8000x1] S8000x5 1
  slices_S8000x16_o0_0_S8000x10 : S8000x16.Slices ![0, 0] S8000x10
  concatenates_S8000x10_S8000x5_S8000x15_d1 : Shape.Concatenates [S8000x10, S8000x5] S8000x15 1
  inb_S8000x15_S8000x15_0_0 : ∀ a, (![0, 0] : Fin 2 → Nat) a + S8000x15.size a ≤ S8000x15.size a
  h_S8000x15 : 0 < S8000x15.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S4000000x16.size a
  hwx0_0 : ∀ i : grid0.Coords, EltTy.bits .f32 = 32 ∨ (Rect.block (s := S4000000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x15.size a ≤ S4000000x15.size a
  hwx0_1 : ∀ i : grid0.Coords, EltTy.bits .f32 = 32 ∨ (Rect.block (s := S4000000x15) S8000x15.size (cc0_transform_1 i) (hinb0_1 i)).WholeWords (EltTy.packing .f32)

variable [Facts₀]

abbrev win0_0 : Pipeline.Window sig grid0 :=
  Pipeline.Window.ofSpec (Memref.whole main_arg0) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x15.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x16 : Shape := ⟨2, ![4000000, 16]⟩
abbrev S4 : Shape := ⟨1, ![4]⟩
abbrev S_ : Shape := ⟨0, ![]⟩
abbrev S4x1 : Shape := ⟨2, ![4, 1]⟩
abbrev S4000000x4 : Shape := ⟨2, ![4000000, 4]⟩
abbrev S4000000 : Shape := ⟨1, ![4000000]⟩
abbrev S4000000x1 : Shape := ⟨2, ![4000000, 1]⟩
abbrev S4000000x5 : Shape := ⟨2, ![4000000, 5]⟩
abbrev S4000000x10 : Shape := ⟨2, ![4000000, 10]⟩
abbrev S4000000x15 : Shape := ⟨2, ![4000000, 15]⟩

abbrev nBuf : Space → Nat
  | .hbm => 54
  | .vmem => 0
  | .smem => 0
  | _ => 0

abbrev bufTy : (tb : Table) → Fin (tcTables nBuf tb) → BufTy
  | .hbm, ⟨0, _⟩ => ⟨S4000000x16, .f32⟩
  | .hbm, ⟨1, _⟩ => ⟨S4, .i32⟩
  | .hbm, ⟨2, _⟩ => ⟨S4, .i1⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S4, .i32⟩
  | .hbm, ⟨7, _⟩ => ⟨S4x1, .i32⟩
  | .hbm, ⟨8, _⟩ => ⟨S4000000x4, .f32⟩
  | .hbm, ⟨9, _⟩ => ⟨S4000000x4, .f32⟩
  | .hbm, ⟨10, _⟩ => ⟨S_, .f32⟩
  | .hbm, ⟨11, _⟩ => ⟨S4000000, .f32⟩
  | .hbm, ⟨12, _⟩ => ⟨S4000000x1, .f32⟩
  | .hbm, ⟨13, _⟩ => ⟨S4000000x4, .f32⟩
  | .hbm, ⟨14, _⟩ => ⟨S4000000x4, .f32⟩
  | .hbm, ⟨15, _⟩ => ⟨S4000000x1, .f32⟩
  | .hbm, ⟨16, _⟩ => ⟨S4000000, .f32⟩
  | .hbm, ⟨17, _⟩ => ⟨S4000000x1, .f32⟩
  | .hbm, ⟨18, _⟩ => ⟨S4000000, .f32⟩
  | .hbm, ⟨19, _⟩ => ⟨S4000000x1, .f32⟩
  | .hbm, ⟨20, _⟩ => ⟨S4000000, .f32⟩
  | .hbm, ⟨21, _⟩ => ⟨S4000000x1, .f32⟩
  | .hbm, ⟨22, _⟩ => ⟨S4000000, .f32⟩
  | .hbm, ⟨23, _⟩ => ⟨S4000000, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S4000000x1, .f32⟩
  | .hbm, ⟨31, _⟩ => ⟨S4000000x1, .f32⟩
  | .hbm, ⟨32, _⟩ => ⟨S4000000x1, .f32⟩
  | .hbm, ⟨33, _⟩ => ⟨S4000000x1, .f32⟩
  | .hbm, ⟨34, _⟩ => ⟨S4000000x1, .f32⟩
  | .hbm, ⟨35, _⟩ => ⟨S4000000x5, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4000000x5, .f32⟩
  | .hbm, ⟨40, _⟩ => ⟨S4000000x5, .f32⟩
  | .hbm, ⟨41, _⟩ => ⟨S_, .f32⟩
  | .hbm, ⟨42, _⟩ => ⟨S4000000x5, .f32⟩
  | .hbm, ⟨43, _⟩ => ⟨S4000000x5, .f32⟩
  | .hbm, ⟨44, _⟩ => ⟨S_, .f32⟩
  | .hbm, ⟨45, _⟩ => ⟨S4000000x5, .f32⟩
  | .hbm, ⟨46, _⟩ => ⟨S4000000x5, .f32⟩
  | .hbm, ⟨47, _⟩ => ⟨S4000000x5, .f32⟩
  | .hbm, ⟨48, _⟩ => ⟨S4000000x5, .f32⟩
  | .hbm, ⟨49, _⟩ => ⟨S_, .f32⟩
  | .hbm, ⟨50, _⟩ => ⟨S4000000x5, .f32⟩
  | .hbm, ⟨51, _⟩ => ⟨S4000000x5, .f32⟩
  | .hbm, ⟨52, _⟩ => ⟨S4000000x10, .f32⟩
  | .hbm, ⟨53, _⟩ => ⟨S4000000x15, .f32⟩
  | _, _ => ⟨S4000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  concatenates_S4000000x1_S4000000x1_S4000000x1_S4000000x1_S4000000x1_S4000000x5_d1 : Shape.Concatenates [S4000000x1, S4000000x1, S4000000x1, S4000000x1, S4000000x1] S4000000x5 1
  bcast_S_S4000000x5 : S_.BroadcastsInDim S4000000x5 (![] : Fin 0 → Fin S4000000x5.rank)
  slices_S4000000x16_S4000000x10_0_0 : S4000000x16.Slices ![0, 0] S4000000x10
  concatenates_S4000000x10_S4000000x5_S4000000x15_d1 : Shape.Concatenates [S4000000x10, S4000000x5] S4000000x15 1
  gather_S4000000x16_S4x1_S4000000x4_0_1_n_n_1_1_40000001_wf : GatherDims.WF S4000000x16 S4x1 S4000000x4 [0] [1] [] [1] [] 1 ![4000000, 1]

variable [Facts₀]

def gather_S4000000x16_S4x1_S4000000x4_0_1_n_n_1_1_40000001 : GatherDims S4000000x16 S4x1 S4000000x4 where
  offsetDims := [0]
  collapsedSliceDims := [1]
  operandBatchingDims := []
  startIndicesBatchingDims := []
  startIndexMap := [1]
  indexVectorDim := 1
  sliceSizes := ![4000000, 1]
  wf := gather_S4000000x16_S4x1_S4000000x4_0_1_n_n_1_1_40000001_wf

class Facts : Prop extends Facts₀ where

variable [Facts]
-- ==== Proof.Spec.lean ====
/-
  The function both programs compute, row by row, on the extended reals.

  A row `x : Fin 16 → EReal` of the input gives a row of 15 outputs. The first ten are `x 0 … x 9` unchanged.
  For the last five, let `e k = exp (x (10 + k))` for `k < 4`, `T = e 0 + e 1 + e 2 + e 3` and `s k = e k / T`.
  The five ratios are `s 0`, `s 1`, `s 1 / (s 1 + s 0)`, `s 1 / ((s 1 + s 2) + s 3)` and `s 3 / (s 3 + s 2)`,
  and output `10 + k` is the logit of ratio `k` clipped into `[lo, hi]`:
  `1 · log (a / (1 - a))` with `a = min hi (max lo r)`.
  The three float literals are kept as their bit patterns: the same words occur on both sides and are never evaluated.
-/
import Idealize.ShloMosaic.PureOps.Ideal
import Idealize.ShloMosaic.Lib.ValueIdx

noncomputable section

namespace Cert.Spec

open Idealize.ShloMosaic Idealize.ShloMosaic.ValueIdx

/-- The lower clip bound, the upper clip bound and the unit, as the words both programs carry. -/
abbrev lo : EReal := FloatOps.ofBits (F := Ideal) .f32 0x358637BD#32
abbrev hi : EReal := FloatOps.ofBits (F := Ideal) .f32 0x3F7FFFEF#32
abbrev one : EReal := FloatOps.ofBits (F := Ideal) .f32 0x3F800000#32

/-- A value clipped into `[lo, hi]`: first raised to `lo`, then lowered to `hi`. -/
def clip (v : EReal) : EReal := min hi (max lo v)

/-- The logit of the clipped value, times the unit factor. -/
def logit (v : EReal) : EReal := one * Ideal.log (Ideal.div (clip v) (one - clip v))

/-- The exponential of selected column `10 + k` of a row. -/
def ex (x : Fin 16 → EReal) (k : Fin 4) : EReal := Ideal.exp (x ⟨10 + k.val, by omega⟩)

/-- The sum of the four exponentials. -/
def tot (x : Fin 16 → EReal) : EReal := ∑ k : Fin 4, ex x k

/-- The four normalized weights. -/
def sm (x : Fin 16 → EReal) (k : Fin 4) : EReal := Ideal.div (ex x k) (tot x)

/-- The five ratios of the weights. -/
def r0 (x : Fin 16 → EReal) : EReal := sm x 0
def r1 (x : Fin 16 → EReal) : EReal := sm x 1
def r2 (x : Fin 16 → EReal) : EReal := Ideal.div (sm x 1) (sm x 1 + sm x 0)
def r3 (x : Fin 16 → EReal) : EReal := Ideal.div (sm x 1) (sm x 1 + sm x 2 + sm x 3)
def r4 (x : Fin 16 → EReal) : EReal := Ideal.div (sm x 3) (sm x 3 + sm x 2)

/-- The ratios as one family over `Fin 5`. -/
def ratio (x : Fin 16 → EReal) (k : Fin 5) : EReal :=
  match k with
  | ⟨0, _⟩ => r0 x
  | ⟨1, _⟩ => r1 x
  | ⟨2, _⟩ => r2 x
  | ⟨3, _⟩ => r3 x
  | ⟨4, _⟩ => r4 x

/-- One output row: the first ten columns of the input row, then the five clipped logits. -/
def outRow (x : Fin 16 → EReal) (q : Fin 15) : EReal :=
  if h : q.val < 10 then x ⟨q.val, by omega⟩ else logit (ratio x ⟨q.val - 10, by omega⟩)

theorem outRow_lt (x : Fin 16 → EReal) (q : Fin 15) (h : q.val < 10) : outRow x q = x ⟨q.val, by omega⟩ := by
  unfold outRow; rw [dif_pos h]

theorem outRow_ge (x : Fin 16 → EReal) (q : Fin 15) (k : Fin 5) (h : q.val = 10 + k.val) :
    outRow x q = logit (ratio x k) := by
  unfold outRow
  rw [dif_neg (by omega)]
  exact congrArg (fun k => logit (ratio x k)) (Fin.ext (by simp only []; omega))

/-- Row `r` of a 16-column array. -/
def rowOf {n : Nat} (X : (⟨2, ![n, 16]⟩ : Shape).Idx → EReal) (r : Fin n) : Fin 16 → EReal := fun c => X (ix2 r c)

/-- The whole result: output `(r, q)` is `outRow` of input row `r` at `q`. -/
def G {n : Nat} (X : (⟨2, ![n, 16]⟩ : Shape).Idx → EReal) : (⟨2, ![n, 15]⟩ : Shape).Idx → EReal :=
  fun i => outRow (rowOf X ⟨(i 0).val, idx2_lt0 i⟩) ⟨(i 1).val, idx2_lt1 i⟩

theorem G_ix2 {n : Nat} (X : (⟨2, ![n, 16]⟩ : Shape).Idx → EReal) (r : Fin n) (q : Fin 15) :
    G X (ix2 r q) = outRow (rowOf X r) q := rfl

/-- `G` at an index depends only on that index's row of the input and on its column: two arrays that agree on
    the two rows, read at indices with the same column, give the same value. -/
theorem G_congr {n n' : Nat} (X : (⟨2, ![n, 16]⟩ : Shape).Idx → EReal) (Y : (⟨2, ![n', 16]⟩ : Shape).Idx → EReal)
    (i : (⟨2, ![n, 15]⟩ : Shape).Idx) (i' : (⟨2, ![n', 15]⟩ : Shape).Idx) (hc : (i 1).val = (i' 1).val)
    (hrow : ∀ c : Fin 16, X (ix2 ⟨(i 0).val, idx2_lt0 i⟩ c) = Y (ix2 ⟨(i' 0).val, idx2_lt0 i'⟩ c)) :
    G X i = G Y i' := by
  unfold G
  have hr : rowOf X ⟨(i 0).val, idx2_lt0 i⟩ = rowOf Y ⟨(i' 0).val, idx2_lt0 i'⟩ := funext hrow
  rw [hr]
  exact congrArg (outRow _) (Fin.ext hc)

end Cert.Spec

end
-- ==== Proof.LibCols.lean ====
/-
  Arrays of rows laid side by side along the column axis, read at an index.

  General facts about `concatenate` along axis 1 of rank-2 shapes `[n, a]`, for any row count `n` and any
  element type: two pieces (an index left of the seam reads the first piece at the same place, an index at or
  past it reads the second piece `a` columns back), and five one-column pieces (column `k` reads piece `k`).
-/
import Idealize.ShloMosaic.Lib.ValueIdx
import Idealize.ShloMosaic.Lib.Pipeline.Value

namespace Cert.LibCols

open Idealize.ShloMosaic Idealize.ShloMosaic.ValueIdx

variable {α : Type} {n : Nat}

/-- Two pieces `[n, a]` and `[n, b]` side by side, read at a column `q` left of the seam: the first piece at `(r, q)`. -/
theorem cat2_left {a b c : Nat} (X : (⟨2, ![n, a]⟩ : Shape).Idx → α) (Y : (⟨2, ![n, b]⟩ : Shape).Idx → α)
    (h : Shape.Concatenates [⟨2, ![n, a]⟩, ⟨2, ![n, b]⟩] ⟨2, ![n, c]⟩ 1) (r : Fin n) (q : Fin c) (q' : Fin a)
    (hq : q'.val = q.val) :
    concatenate ⟨2, ![n, c]⟩ 1 [⟨⟨2, ![n, a]⟩, X⟩, ⟨⟨2, ![n, b]⟩, Y⟩] h (ix2 r q) = X (ix2 r q') := by
  refine concatenate_pair_apply_left (t := ⟨2, ![n, c]⟩) (s₁ := ⟨2, ![n, a]⟩) (s₂ := ⟨2, ![n, b]⟩) (1 : Fin 2) X Y h
    (ix2 r q) rfl (ix2 r q') ?_
  intro d
  match d with
  | ⟨0, _⟩ => rfl
  | ⟨1, _⟩ => exact hq

/-- The same read at a column `q` at or past the seam: the second piece at `(r, q - a)`. -/
theorem cat2_right {a b c : Nat} (X : (⟨2, ![n, a]⟩ : Shape).Idx → α) (Y : (⟨2, ![n, b]⟩ : Shape).Idx → α)
    (h : Shape.Concatenates [⟨2, ![n, a]⟩, ⟨2, ![n, b]⟩] ⟨2, ![n, c]⟩ 1) (r : Fin n) (q : Fin c) (q' : Fin b)
    (hq : q'.val + a = q.val) :
    concatenate ⟨2, ![n, c]⟩ 1 [⟨⟨2, ![n, a]⟩, X⟩, ⟨⟨2, ![n, b]⟩, Y⟩] h (ix2 r q) = Y (ix2 r q') := by
  refine concatenate_pair_apply_right (t := ⟨2, ![n, c]⟩) (s₁ := ⟨2, ![n, a]⟩) (s₂ := ⟨2, ![n, b]⟩) (1 : Fin 2) X Y h
    (ix2 r q) rfl rfl (ix2 r q') ?_ ?_
  · intro d hd
    match d with
    | ⟨0, _⟩ => rfl
    | ⟨1, _⟩ => exact absurd rfl hd
  · exact hq

/-- Piece `k` of five. -/
def pick5 {β : Type} (c0 c1 c2 c3 c4 : β) (k : Fin 5) : β :=
  match k with
  | ⟨0, _⟩ => c0
  | ⟨1, _⟩ => c1
  | ⟨2, _⟩ => c2
  | ⟨3, _⟩ => c3
  | ⟨4, _⟩ => c4

/-- Five one-column pieces side by side, read at column `k`: piece `k` at its only column. -/
theorem cat5_apply (c0 c1 c2 c3 c4 : (⟨2, ![n, 1]⟩ : Shape).Idx → α)
    (h : Shape.Concatenates [⟨2, ![n, 1]⟩, ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩] h (ix2 r k)
      = pick5 c0 c1 c2 c3 c4 k (ix2 r (0 : Fin 1)) := by
  have hi : ∀ (j : Fin 5) (d : Fin (⟨2, ![n, 1]⟩ : Shape).rank),
      d.cast (rfl : (⟨2, ![n, 1]⟩ : Shape).rank = (⟨2, ![n, 5]⟩ : Shape).rank) ≠ (1 : Fin 2) →
      ((ix2 r (0 : Fin 1) : (⟨2, ![n, 1]⟩ : Shape).Idx) d).val = ((ix2 r j : (⟨2, ![n, 5]⟩ : Shape).Idx) (d.cast rfl)).val := by
    intro j d hd
    match d with
    | ⟨0, _⟩ => rfl
    | ⟨1, _⟩ => exact absurd rfl hd
  match k with
  | ⟨0, _⟩ =>
    exact concatenate_apply_piece (t := ⟨2, ![n, 5]⟩) (1 : Fin 2)
      [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩] h (ix2 r _) 0 (by show 0 < 5; omega)
      ⟨2, ![n, 1]⟩ c0 rfl rfl 0 rfl (ix2 r (0 : Fin 1)) (hi _) rfl
  | ⟨1, _⟩ =>
    exact concatenate_apply_piece (t := ⟨2, ![n, 5]⟩) (1 : Fin 2)
      [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩] h (ix2 r _) 1 (by show 1 < 5; omega)
      ⟨2, ![n, 1]⟩ c1 rfl rfl 1 rfl (ix2 r (0 : Fin 1)) (hi _) rfl
  | ⟨2, _⟩ =>
    exact concatenate_apply_piece (t := ⟨2, ![n, 5]⟩) (1 : Fin 2)
      [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩] h (ix2 r _) 2 (by show 2 < 5; omega)
      ⟨2, ![n, 1]⟩ c2 rfl rfl 2 rfl (ix2 r (0 : Fin 1)) (hi _) rfl
  | ⟨3, _⟩ =>
    exact concatenate_apply_piece (t := ⟨2, ![n, 5]⟩) (1 : Fin 2)
      [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩] h (ix2 r _) 3 (by show 3 < 5; omega)
      ⟨2, ![n, 1]⟩ c3 rfl rfl 3 rfl (ix2 r (0 : Fin 1)) (hi _) rfl
  | ⟨4, _⟩ =>
    exact concatenate_apply_piece (t := ⟨2, ![n, 5]⟩) (1 : Fin 2)
      [⟨⟨2, ![n, 1]⟩, c0⟩, ⟨⟨2, ![n, 1]⟩, c1⟩, ⟨⟨2, ![n, 1]⟩, c2⟩, ⟨⟨2, ![n, 1]⟩, c3⟩, ⟨⟨2, ![n, 1]⟩, c4⟩] h (ix2 r _) 4 (by show 4 < 5; omega)
      ⟨2, ![n, 1]⟩ c4 rfl rfl 4 rfl (ix2 r (0 : Fin 1)) (hi _) rfl

end Cert.LibCols
-- ==== Proof.KernelRow.lean ====
/-
  One block of the kernel's body read index by index: for a block `x0 : [8000, 16]` of input rows, the value the
  body stores at `(p, q)` is `Spec.outRow` of row `p` of the block at `q`.

  The steps: the slice of columns 10..13 under the exponential; its sum along the row (a four-term sum); the
  quotient of the two, the weights; each weight as a one-column block; the three further ratios and the clipped
  logits, entrywise; and the two concatenations, read by the column `q`: below 10 the input's own column, from 10
  on the logit of ratio `q - 10`.
-/
import proofs.«118689_j11544872092147_1_alg».proof.Proof.Gen.KernelIdeal.Skeleton
import proofs.«118689_j11544872092147_1_alg».proof.Proof.Spec
import proofs.«118689_j11544872092147_1_alg».proof.Proof.LibCols
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.Spec Cert.LibCols

/-- The only index of a one-column block's row `p`. -/
abbrev at0 (p : Fin 8000) : S8000x1.Idx := ix2 p (0 : Fin 1)

/-! ## The clipped logit, entrywise on a one-column block -/

/-- A one-column block clipped entrywise: raised to the lower bound, then lowered to the upper bound. -/
def clipV (v : FVec Ideal S8000x1 .f32) : FVec Ideal S8000x1 .f32 :=
  minimumf (broadcast S8000x1 (Scalar.ofBits (F := Ideal) .f32 0x3F7FFFEF#32))
    (maximumf (broadcast S8000x1 (Scalar.ofBits (F := Ideal) .f32 0x358637BD#32)) v)

/-- The logit of the clipped block, times the unit factor, entrywise. -/
def logitV (v : FVec Ideal S8000x1 .f32) : FVec Ideal S8000x1 .f32 :=
  mulf (broadcast S8000x1 (Scalar.ofBits (F := Ideal) .f32 0x3F800000#32))
    (log (divf (clipV v) (subf (broadcast S8000x1 (Scalar.ofBits (F := Ideal) .f32 0x3F800000#32)) (clipV v))))

theorem logitV_apply (v : FVec Ideal S8000x1 .f32) (i : S8000x1.Idx) : logitV v i = logit (v i) := rfl

/-! ## The payloads as those operations of one another -/

section Eqs
variable (x0 : Vec Ideal S8000x16 .f32)

theorem pay7_eq : k0_pay7 x0 = logitV (k0_pay3 x0) := rfl
theorem pay8_eq : k0_pay8 x0 = logitV (k0_pay4 x0) := rfl
theorem pay9_eq : k0_pay9 x0 = logitV (divf (k0_pay4 x0) (addf (k0_pay4 x0) (k0_pay3 x0))) := rfl
theorem pay10_eq : k0_pay10 x0 = addf (k0_pay4 x0) (k0_pay5 x0) := rfl

/-- The stored block: the first ten columns of the loaded block, then five one-column blocks of logits. -/
theorem pay1_eq (v0 : Vec Ideal S8000x16 .f32) (v8 v9 v10 v20 v30 v42 v43 : FVec Ideal S8000x1 .f32) :
    k0_pay1 v0 v8 v9 v10 v20 v30 v42 v43
      = concatenate S8000x15 1
          [⟨S8000x10, extractStridedSlice S8000x10 ![0, 0] v0 slices_S8000x16_o0_0_S8000x10⟩,
           ⟨S8000x5, concatenate S8000x5 1
              [⟨S8000x1, v20⟩, ⟨S8000x1, v30⟩, ⟨S8000x1, v42⟩,
               ⟨S8000x1, logitV (divf v8 (addf v43 v10))⟩, ⟨S8000x1, logitV (divf v10 (addf v10 v9))⟩]
              concatenates_S8000x1_S8000x1_S8000x1_S8000x1_S8000x1_S8000x5_d1⟩]
          concatenates_S8000x10_S8000x5_S8000x15_d1 := rfl

end Eqs

variable (x0 : Vec Ideal S8000x16 .f32) (p : Fin 8000)

/-! ## The weights -/

/-- The exponential of the slice of columns 10..13 at `(p, k)` is `exp` of column `10 + k` of row `p`. -/
theorem expSel_apply (h : S8000x16.Slices ![0, 10] S8000x4) (k : Fin 4) :
    exp (F := Ideal) (φ := .f32) (extractStridedSlice S8000x4 ![0, 10] x0 h) (ix2 p k) = ex (rowOf x0 p) k :=
  congrArg Ideal.exp (slice2_axis1_apply 10 x0 h p k ⟨10 + k.val, by omega⟩ rfl)

/-- A sum along the second axis of an [8000, 4] block, read at row `p`: the four entries of the row added. -/
theorem rowSum_apply (v : FVec Ideal S8000x4 .f32) (h : S8000x4.Reduces [1] S8000) (hφ : FKind.Formats .f32)
    (hacc : (0x00000000#32 : BitVec 32) = FKind.add.neutral .f32 hφ) :
    multiReduction .add [1] S8000 v 0x00000000#32 h hφ hacc (ix1 p) = ∑ k : Fin 4, v (ix2 p k) := by
  refine (Ideal.multiReduction_add_single v 0x00000000#32 h hφ hacc (ix1 p)).trans ?_
  refine Finset.sum_congr rfl fun k _ => congrArg v ?_
  funext a
  match a with
  | ⟨0, _⟩ => exact Fin.ext rfl
  | ⟨1, _⟩ => exact Fin.ext rfl

/-- The body's quotient of the exponentials by their row sum, at `(p, k)`: weight `k` of row `p`. -/
theorem weight_apply (k : Fin 4) : k0_pay2 x0 (ix2 p k) = sm (rowOf x0 p) k := by
  unfold k0_pay2
  refine (divf_apply _ _ (ix2 p k)).trans ?_
  refine congrArg₂ Ideal.div (expSel_apply x0 p _ k) ?_
  refine (broadcastTo_apply _ _ (ix2 p k) (at0 p) ?_).trans ?_
  · intro a
    match a with
    | ⟨0, _⟩ => rfl
    | ⟨1, _⟩ => rfl
  refine (shapeCast_apply _ _ (at0 p) (ix1 p) ?_).trans ?_
  · rw [Shape.rowMajor_val_one, Shape.rowMajor_val_two]
    show p.val = p.val * 1 + 0
    omega
  refine (rowSum_apply p _ _ _ _).trans ?_
  exact Finset.sum_congr rfl fun k _ => expSel_apply x0 p _ k

/-- Each weight as a one-column block. -/
theorem pay3_apply : k0_pay3 x0 (at0 p) = sm (rowOf x0 p) 0 := by
  unfold k0_pay3
  exact (slice2_axis1_apply 0 (k0_pay2 x0) _ p (0 : Fin 1) (0 : Fin 4) rfl).trans (weight_apply x0 p 0)
theorem pay4_apply : k0_pay4 x0 (at0 p) = sm (rowOf x0 p) 1 := by
  unfold k0_pay4
  exact (slice2_axis1_apply 1 (k0_pay2 x0) _ p (0 : Fin 1) (1 : Fin 4) rfl).trans (weight_apply x0 p 1)
theorem pay5_apply : k0_pay5 x0 (at0 p) = sm (rowOf x0 p) 2 := by
  unfold k0_pay5
  exact (slice2_axis1_apply 2 (k0_pay2 x0) _ p (0 : Fin 1) (2 : Fin 4) rfl).trans (weight_apply x0 p 2)
theorem pay6_apply : k0_pay6 x0 (at0 p) = sm (rowOf x0 p) 3 := by
  unfold k0_pay6
  exact (slice2_axis1_apply 3 (k0_pay2 x0) _ p (0 : Fin 1) (3 : Fin 4) rfl).trans (weight_apply x0 p 3)

/-! ## The five logits -/

theorem pay7_apply : k0_pay7 x0 (at0 p) = logit (r0 (rowOf x0 p)) := by
  rw [pay7_eq, logitV_apply, pay3_apply]; rfl
theorem pay8_apply : k0_pay8 x0 (at0 p) = logit (r1 (rowOf x0 p)) := by
  rw [pay8_eq, logitV_apply, pay4_apply]; rfl
theorem pay9_apply : k0_pay9 x0 (at0 p) = logit (r2 (rowOf x0 p)) := by
  rw [pay9_eq, logitV_apply, divf_apply, addf_apply, pay4_apply, pay3_apply]; rfl
theorem pay10_apply : k0_pay10 x0 (at0 p) = sm (rowOf x0 p) 1 + sm (rowOf x0 p) 2 := by
  rw [pay10_eq, addf_apply, pay4_apply, pay5_apply]

/-! ## The stored block -/

/-- The value the body stores, as a function of the loaded block. -/
abbrev stored (x0 : Vec Ideal S8000x16 .f32) : FVec Ideal S8000x15 .f32 :=
  k0_pay1 x0 (k0_pay4 x0) (k0_pay5 x0) (k0_pay6 x0) (k0_pay7 x0) (k0_pay8 x0) (k0_pay9 x0) (k0_pay10 x0)

/-- THE BLOCK: what the body stores at `(p, q)` is the output row of input row `p` at `q`. -/
theorem stored_apply (q : Fin 15) : stored x0 (ix2 p q) = outRow (rowOf x0 p) q := by
  unfold stored
  rw [pay1_eq]
  by_cases hq : q.val < 10
  · rw [outRow_lt _ _ hq]
    refine (cat2_left (n := 8000) (a := 10) (b := 5) (c := 15) _ _ _ p q ⟨q.val, hq⟩ rfl).trans ?_
    exact slice2_axis1_apply 0 x0 _ p (⟨q.val, hq⟩ : Fin 10) ⟨q.val, by omega⟩ (by simp)
  · obtain ⟨k, hk⟩ : ∃ k : Fin 5, q.val = 10 + k.val := ⟨⟨q.val - 10, by omega⟩, by simp only []; omega⟩
    rw [outRow_ge _ _ k hk]
    refine (cat2_right (n := 8000) (a := 10) (b := 5) (c := 15) _ _ _ p q k (by omega)).trans ?_
    refine (cat5_apply (n := 8000) _ _ _ _ _ _ p k).trans ?_
    match k with
    | ⟨0, _⟩ => exact pay7_apply x0 p
    | ⟨1, _⟩ => exact pay8_apply x0 p
    | ⟨2, _⟩ => exact pay9_apply x0 p
    | ⟨3, _⟩ =>
      show logitV (divf (k0_pay4 x0) (addf (k0_pay10 x0) (k0_pay6 x0))) (at0 p) = logit (r3 (rowOf x0 p))
      rw [logitV_apply, divf_apply, addf_apply, pay4_apply, pay10_apply, pay6_apply]; rfl
    | ⟨4, _⟩ =>
      show logitV (divf (k0_pay6 x0) (addf (k0_pay6 x0) (k0_pay5 x0))) (at0 p) = logit (r4 (rowOf x0 p))
      rw [logitV_apply, divf_apply, addf_apply, pay6_apply, pay5_apply]; rfl

end Cert.KernelIdeal.Row

end
-- ==== Proof.KernelValue.lean ====
/-
  From blocks to the whole array. The kernel runs over 500 grid points; point `t` loads rows
  `8000 t … 8000 t + 7999` of the input and writes back the same rows of the output. What it writes back is
  `Spec.G` of the loaded block; since `G` at an index depends only on that index's row of its argument, this is block
  `t` of `G` of the whole input; the 500 blocks cover every output index (row `i` lies in block `i / 8000`), so the
  output array ends as `G` of the input array.
-/
import proofs.«118689_j11544872092147_1_alg».proof.Proof.Gen.KernelIdeal.Value
import proofs.«118689_j11544872092147_1_alg».proof.Proof.KernelRow

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What the body leaves in the output's buffer is `G` of the loaded block: its one store covers the buffer, its
    payload is the stored block, and the stored block at `(p, q)` is the output row of row `p` at `q`. -/
theorem out_eq (x0 : Vec Ideal S8000x16 .f32) : out0_1 x0 = G (n := 8000) x0 := by
  unfold out0_1
  rw [View.canon_unit_zero zero_offsets]
  simp only [View.ld_unit_zero (S := S8000x16) zero_offsets]
  funext y
  obtain ⟨p, q, rfl⟩ : ∃ (p : Fin 8000) (q : Fin 15), y = ix2 p q := ⟨_, _, eq_ix2 y⟩
  exact Row.stored_apply x0 p q

/-- The printed index maps, decided over the grid: the two windows move together along the rows, point `t` at
    block `t`, and neither moves along the columns. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) = t.val :=
  (by decide +kernel : ∀ t : Fin grid0.N, _)

/-- WHAT POINT `t` WRITES BACK is block `t` of `G` of the input array as the region finds it. -/
theorem flushed_eq (c : Dev nD) (t : Fin cfg0.N) :
    (dats m 0 c).flushed 1 t = ((cfg0.win 1).blk t).view.read (Elt Ideal) (G (n := 4000000) (V m c main_arg0)) := by
  rw [Value.flushed1, out_eq]
  obtain ⟨e0, e1, e2, e3⟩ := idx_facts t
  funext j
  show G (n := 8000) (iblk m c 0 t) j = G (n := 4000000) (V m c main_arg0) (((cfg0.win 1).blk t).view.emb j)
  refine G_congr (n := 8000) (n' := 4000000) _ _ j _ ?_ ?_
  · show (j 1).val = win0_1.index t (1 : Fin 2) * 15 + 1 * (j 1).val
    omega
  · intro c'
    show V m c main_arg0 (((cfg0.win 0).blk t).view.emb (ix2 ⟨(j 0).val, idx2_lt0 j⟩ c')) = V m c main_arg0 _
    refine congrArg (V m c main_arg0) ?_
    funext a
    apply Fin.ext
    match a with
    | ⟨0, _⟩ =>
      show win0_0.index t (0 : Fin 2) * 8000 + 1 * (j 0).val = win0_1.index t (0 : Fin 2) * 8000 + 1 * (j 0).val
      omega
    | ⟨1, _⟩ =>
      show win0_0.index t (1 : Fin 2) * 16 + 1 * c'.val = c'.val
      omega

/-- An index of the output array is in point `t`'s block iff each coordinate is in the block's range on its axis. -/
theorem mem_blk (t : Fin cfg0.N) (i : S4000000x15.Idx) :
    i ∈ ((cfg0.win 1).blk t).view.set ↔ ∀ a : Fin 2, win0_1.index t a * S8000x15.size a ≤ (i a).val
      ∧ (i a).val < win0_1.index t a * S8000x15.size a + S8000x15.size a := by
  show i ∈ ((View.whole main_v0).slice (win0_1.rect t)).set ↔ _
  rw [View.set_slice_whole, Rect.mem_set_unit]
  exact Iff.rfl

/-- Every output index is in the block of the point its row falls in. -/
theorem cover (i : S4000000x15.Idx) :
    ∃ t : Fin cfg0.N, (cfg0.win 1).flush t = true ∧ i ∈ ((cfg0.win 1).blk t).view.set := by
  have hi0 : (i 0).val < 4000000 := (i 0).isLt
  have hi1 : (i 1).val < 15 := (i 1).isLt
  have ht : (i 0).val / 8000 < 500 := by omega
  obtain ⟨e0, e1, e2, e3⟩ := idx_facts ⟨(i 0).val / 8000, ht⟩
  have e3' : win0_1.index ⟨(i 0).val / 8000, ht⟩ (0 : Fin 2) = (i 0).val / 8000 := e3
  refine ⟨⟨(i 0).val / 8000, ht⟩, flush0_1 _, ?_⟩
  rw [mem_blk]
  intro a
  match a with
  | ⟨0, _⟩ =>
    show win0_1.index ⟨(i 0).val / 8000, ht⟩ (0 : Fin 2) * 8000 ≤ (i 0).val
      ∧ (i 0).val < win0_1.index ⟨(i 0).val / 8000, ht⟩ (0 : Fin 2) * 8000 + 8000
    rw [e3']; omega
  | ⟨1, _⟩ =>
    show win0_1.index ⟨(i 0).val / 8000, ht⟩ (1 : Fin 2) * 15 ≤ (i 1).val
      ∧ (i 1).val < win0_1.index ⟨(i 0).val / 8000, ht⟩ (1 : Fin 2) * 15 + 15
    rw [e2]; omega

/-- THE OUTPUT ARRAY after the run is `G` of the input array as launched. -/
theorem final (c : Dev nD) :
    (dats m 0 c).arrAt 1 cfg0.N = G (n := 4000000) (m ((c : Thread nD τ).loc main_arg0)) :=
  (dats m 0 c).arrAt_eq_of_cover 1 (G (n := 4000000) (V m c main_arg0)) (fun t _ => flushed_eq m c t) cover

/-- The kernel's run: every weakly fair execution terminates with the result at `G` of the argument, the argument
    unchanged. -/
theorem run : θ_run defs (onTc (τ := τ) (main (F := Ideal))) ⟨m, fun _ => 0, ρ⟩ fun r => ∀ c : Dev nD,
      r.2.mem ((c : Thread nD τ).loc main_v0) = G (n := 4000000) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KValue

end
-- ==== Proof.RefTerm.lean ====
/-
  The reference program's result as one composed term of its argument, stage by stage.

  From the argument `x : [4000000, 16]`: the four selected columns (a gather at the constant column table
  10, 11, 12, 13), their exponentials, the row sums of those, the four normalized weights, the three further
  ratios of weights, the five ratios stacked as columns, clipped, their logits, and the first ten columns of
  `x` followed by the five logits.
-/
import proofs.«118689_j11544872092147_1_alg».proof.Proof.Gen.ReferenceIdeal

noncomputable section

namespace Cert.ReferenceIdeal.Term

open Cert.ReferenceIdeal Cert.ReferenceIdeal.Gen Idealize.ShloMosaic

variable {F : FTy → Type} [FloatOps F]

/-- The selected column numbers 10, 11, 12, 13 as a one-axis table. -/
def colTable : IVec S4 32 := fun i => lit0 (S4.rowMajor i)

/-- The table with negative entries wrapped by 16 (the mask of negative entries is all zero, so nothing is
    wrapped), as a [4, 1] array of start indices. -/
def cols : IVec S4x1 32 :=
  broadcastInDim S4x1 ![0] bcast_S4_S4x1_0
    (select (constantI S4 1 0#1) (addi colTable (broadcastInDim S4 ![] bcast_S_S4 (constantI S_ 32 16#32))) colTable)

variable (x : FVec F S4000000x16 .f32)

/-- The exponentials of the four selected columns. -/
def expSel : FVec F S4000000x4 .f32 :=
  Host.exp (Host.gather gather_S4000000x16_S4x1_S4000000x4_0_1_n_n_1_1_40000001 x cols)

/-- Their sum along each row, from the initial value zero. -/
def total : FVec F S4000000 .f32 :=
  Host.reduceAdd (expSel x) (constant S_ .f32 0x00000000#32) reducesTo_S4000000x4_S4000000_d1 h_S_

/-- The four normalized weights of each row. -/
def weights : FVec F S4000000x4 .f32 :=
  Host.divf (expSel x)
    (broadcastInDim S4000000x4 ![0, 1] bcast_S4000000x1_S4000000x4_0_1
      (broadcastInDim S4000000x1 ![0] bcast_S4000000_S4000000x1_0 (total x)))

/-- Weight `k` of every row, as a vector over the rows. -/
def w0 : FVec F S4000000 .f32 :=
  shapeCast S4000000 (extractStridedSlice S4000000x1 ![0, 0] (weights x) slices_S4000000x4_S4000000x1_0_0) shapeCasts_S4000000x1_S4000000
def w1 : FVec F S4000000 .f32 :=
  shapeCast S4000000 (extractStridedSlice S4000000x1 ![0, 1] (weights x) slices_S4000000x4_S4000000x1_0_1) shapeCasts_S4000000x1_S4000000
def w2 : FVec F S4000000 .f32 :=
  shapeCast S4000000 (extractStridedSlice S4000000x1 ![0, 2] (weights x) slices_S4000000x4_S4000000x1_0_2) shapeCasts_S4000000x1_S4000000
def w3 : FVec F S4000000 .f32 :=
  shapeCast S4000000 (extractStridedSlice S4000000x1 ![0, 3] (weights x) slices_S4000000x4_S4000000x1_0_3) shapeCasts_S4000000x1_S4000000

/-- The three further ratios: w1 / (w1 + w0), w1 / ((w1 + w2) + w3), w3 / (w3 + w2). -/
def q2 : FVec F S4000000 .f32 := Host.divf (w1 x) (addf (w1 x) (w0 x))
def q3 : FVec F S4000000 .f32 := Host.divf (w1 x) (addf (addf (w1 x) (w2 x)) (w3 x))
def q4 : FVec F S4000000 .f32 := Host.divf (w3 x) (addf (w3 x) (w2 x))

/-- A vector over the rows as a one-column array. -/
def col (v : FVec F S4000000 .f32) : FVec F S4000000x1 .f32 :=
  broadcastInDim S4000000x1 ![0] bcast_S4000000_S4000000x1_0 v

/-- The five ratios, one column each. -/
def ratios : FVec F S4000000x5 .f32 :=
  concatenate S4000000x5 1 [⟨S4000000x1, col (w0 x)⟩, ⟨S4000000x1, col (w1 x)⟩, ⟨S4000000x1, col (q2 x)⟩, ⟨S4000000x1, col (q3 x)⟩, ⟨S4000000x1, col (q4 x)⟩]
    concatenates_S4000000x1_S4000000x1_S4000000x1_S4000000x1_S4000000x1_S4000000x5_d1

/-- A scalar constant spread over the [4000000, 5] array. -/
def splat5 (b : BitVec 32) : FVec F S4000000x5 .f32 :=
  broadcastInDim S4000000x5 ![] bcast_S_S4000000x5 (constant S_ .f32 b)

/-- The ratios clipped: raised to the lower bound, then lowered to the upper bound. -/
def clipped : FVec F S4000000x5 .f32 :=
  minimumf (splat5 0x3F7FFFEF#32) (maximumf (splat5 0x358637BD#32) (ratios x))

/-- The logits of the clipped ratios, times the unit factor. -/
def logits : FVec F S4000000x5 .f32 :=
  mulf (splat5 0x3F800000#32) (Host.log (Host.divf (clipped x) (subf (splat5 0x3F800000#32) (clipped x))))

/-- The result: the first ten columns of `x`, then the five logits. -/
def refOut : FVec F S4000000x15 .f32 :=
  concatenate S4000000x15 1 [⟨S4000000x10, extractStridedSlice S4000000x10 ![0, 0] x slices_S4000000x16_S4000000x10_0_0⟩, ⟨S4000000x5, logits x⟩]
    concatenates_S4000000x10_S4000000x5_S4000000x15_d1

end Cert.ReferenceIdeal.Term

end
-- ==== Proof.RefRun.lean ====
/-
  The reference program's run read back: `@main` is a straight line of 53 host operations (the six of the
  clipping function standing where it is called), so every weakly fair execution terminates with each buffer at
  the fold of those operations over the launch contents; at the result buffer that fold is the composed term
  `Term.refOut` of the argument, and the argument's buffer is never written.
-/
import proofs.«118689_j11544872092147_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the clipping function's six in the place of its call, over that call's buffers. -/
abbrev ops : List (HloOp τ sig (Elt F)) :=
  [ nullary main_c (fun i => lit0 (S4.rowMajor i)),
    nullary main_c_0 (constantI S4 1 0#1),
    nullary main_c_1 (constantI S_ 32 16#32),
    unary main_c_1 main_v0 (broadcastInDim S4 ![] bcast_S_S4 : (⟨S_, .i32⟩ : BufTy).Contents (Elt F) → (⟨S4, .i32⟩ : BufTy).Contents (Elt F)),
    binary main_c main_v0 main_v1 (addi : (⟨S4, .i32⟩ : BufTy).Contents (Elt F) → (⟨S4, .i32⟩ : BufTy).Contents (Elt F) → (⟨S4, .i32⟩ : BufTy).Contents (Elt F)),
    ternary main_c_0 main_v1 main_c main_v2 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v2 main_v3 (broadcastInDim S4x1 ![0] bcast_S4_S4x1_0 : (⟨S4, .i32⟩ : BufTy).Contents (Elt F) → (⟨S4x1, .i32⟩ : BufTy).Contents (Elt F)),
    binary main_arg0 main_v3 main_v4 ((fun x i => Host.gather gather_S4000000x16_S4x1_S4000000x4_0_1_n_n_1_1_40000001 x i) : (⟨S4000000x16, .f32⟩ : BufTy).Contents (Elt F) → (⟨S4x1, .i32⟩ : BufTy).Contents (Elt F) → (⟨S4000000x4, .f32⟩ : BufTy).Contents (Elt F)),
    unary main_v4 main_v5 (Host.exp : (⟨S4000000x4, .f32⟩ : BufTy).Contents (Elt F) → (⟨S4000000x4, .f32⟩ : BufTy).Contents (Elt F)),
    nullary main_cst (constant S_ .f32 0x00000000#32),
    binary main_v5 main_cst main_v6 ((fun x v => Host.reduceAdd x v reducesTo_S4000000x4_S4000000_d1 h_S_) : (⟨S4000000x4, .f32⟩ : BufTy).Contents (Elt F) → (⟨S_, .f32⟩ : BufTy).Contents (Elt F) → (⟨S4000000, .f32⟩ : BufTy).Contents (Elt F)),
    unary main_v6 main_v7 (broadcastInDim S4000000x1 ![0] bcast_S4000000_S4000000x1_0 : (⟨S4000000, .f32⟩ : BufTy).Contents (Elt F) → (⟨S4000000x1, .f32⟩ : BufTy).Contents (Elt F)),
    unary main_v7 main_v8 (broadcastInDim S4000000x4 ![0, 1] bcast_S4000000x1_S4000000x4_0_1 : (⟨S4000000x1, .f32⟩ : BufTy).Contents (Elt F) → (⟨S4000000x4, .f32⟩ : BufTy).Contents (Elt F)),
    binary main_v5 main_v8 main_v9 (Host.divf : (⟨S4000000x4, .f32⟩ : BufTy).Contents (Elt F) → (⟨S4000000x4, .f32⟩ : BufTy).Contents (Elt F) → (⟨S4000000x4, .f32⟩ : BufTy).Contents (Elt F)),
    unary main_v9 main_v10 ((extractStridedSlice S4000000x1 ![0, 0] · slices_S4000000x4_S4000000x1_0_0) : (⟨S4000000x4, .f32⟩ : BufTy).Contents (Elt F) → (⟨S4000000x1, .f32⟩ : BufTy).Contents (Elt F)),
    reshape main_v10 main_v11 rfl shapeCasts_S4000000x1_S4000000,
    unary main_v9 main_v12 ((extractStridedSlice S4000000x1 ![0, 1] · slices_S4000000x4_S4000000x1_0_1) : (⟨S4000000x4, .f32⟩ : BufTy).Contents (Elt F) → (⟨S4000000x1, .f32⟩ : BufTy).Contents (Elt F)),
    reshape main_v12 main_v13 rfl shapeCasts_S4000000x1_S4000000,
    unary main_v9 main_v14 ((extractStridedSlice S4000000x1 ![0, 2] · slices_S4000000x4_S4000000x1_0_2) : (⟨S4000000x4, .f32⟩ : BufTy).Contents (Elt F) → (⟨S4000000x1, .f32⟩ : BufTy).Contents (Elt F)),
    reshape main_v14 main_v15 rfl shapeCasts_S4000000x1_S4000000,
    unary main_v9 main_v16 ((extractStridedSlice S4000000x1 ![0, 3] · slices_S4000000x4_S4000000x1_0_3) : (⟨S4000000x4, .f32⟩ : BufTy).Contents (Elt F) → (⟨S4000000x1, .f32⟩ : BufTy).Contents (Elt F)),
    reshape main_v16 main_v17 rfl shapeCasts_S4000000x1_S4000000,
    binary main_v13 main_v11 main_v18 (addf : (⟨S4000000, .f32⟩ : BufTy).Contents (Elt F) → (⟨S4000000, .f32⟩ : BufTy).Contents (Elt F) → (⟨S4000000, .f32⟩ : BufTy).Contents (Elt F)),
    binary main_v13 main_v18 main_v19 (Host.divf : (⟨S4000000, .f32⟩ : BufTy).Contents (Elt F) → (⟨S4000000, .f32⟩ : BufTy).Contents (Elt F) → (⟨S4000000, .f32⟩ : BufTy).Contents (Elt F)),
    binary main_v13 main_v15 main_v20 (addf : (⟨S4000000, .f32⟩ : BufTy).Contents (Elt F) → (⟨S4000000, .f32⟩ : BufTy).Contents (Elt F) → (⟨S4000000, .f32⟩ : BufTy).Contents (Elt F)),
    binary main_v20 main_v17 main_v21 (addf : (⟨S4000000, .f32⟩ : BufTy).Contents (Elt F) → (⟨S4000000, .f32⟩ : BufTy).Contents (Elt F) → (⟨S4000000, .f32⟩ : BufTy).Contents (Elt F)),
    binary main_v13 main_v21 main_v22 (Host.divf : (⟨S4000000, .f32⟩ : BufTy).Contents (Elt F) → (⟨S4000000, .f32⟩ : BufTy).Contents (Elt F) → (⟨S4000000, .f32⟩ : BufTy).Contents (Elt F)),
    binary main_v17 main_v15 main_v23 (addf : (⟨S4000000, .f32⟩ : BufTy).Contents (Elt F) → (⟨S4000000, .f32⟩ : BufTy).Contents (Elt F) → (⟨S4000000, .f32⟩ : BufTy).Contents (Elt F)),
    binary main_v17 main_v23 main_v24 (Host.divf : (⟨S4000000, .f32⟩ : BufTy).Contents (Elt F) → (⟨S4000000, .f32⟩ : BufTy).Contents (Elt F) → (⟨S4000000, .f32⟩ : BufTy).Contents (Elt F)),
    unary main_v11 main_v25 (broadcastInDim S4000000x1 ![0] bcast_S4000000_S4000000x1_0 : (⟨S4000000, .f32⟩ : BufTy).Contents (Elt F) → (⟨S4000000x1, .f32⟩ : BufTy).Contents (Elt F)),
    unary main_v13 main_v26 (broadcastInDim S4000000x1 ![0] bcast_S4000000_S4000000x1_0 : (⟨S4000000, .f32⟩ : BufTy).Contents (Elt F) → (⟨S4000000x1, .f32⟩ : BufTy).Contents (Elt F)),
    unary main_v19 main_v27 (broadcastInDim S4000000x1 ![0] bcast_S4000000_S4000000x1_0 : (⟨S4000000, .f32⟩ : BufTy).Contents (Elt F) → (⟨S4000000x1, .f32⟩ : BufTy).Contents (Elt F)),
    unary main_v22 main_v28 (broadcastInDim S4000000x1 ![0] bcast_S4000000_S4000000x1_0 : (⟨S4000000, .f32⟩ : BufTy).Contents (Elt F) → (⟨S4000000x1, .f32⟩ : BufTy).Contents (Elt F)),
    unary main_v24 main_v29 (broadcastInDim S4000000x1 ![0] bcast_S4000000_S4000000x1_0 : (⟨S4000000, .f32⟩ : BufTy).Contents (Elt F) → (⟨S4000000x1, .f32⟩ : BufTy).Contents (Elt F)),
    nary ![main_v25, main_v26, main_v27, main_v28, main_v29] main_v30 (fun u => concatenate S4000000x5 1 [⟨S4000000x1, u 0⟩, ⟨S4000000x1, u 1⟩, ⟨S4000000x1, u 2⟩, ⟨S4000000x1, u 3⟩, ⟨S4000000x1, u 4⟩] concatenates_S4000000x1_S4000000x1_S4000000x1_S4000000x1_S4000000x1_S4000000x5_d1),
    nullary main_cst_2 (constant S_ .f32 0x358637BD#32),
    nullary main_cst_3 (constant S_ .f32 0x3F7FFFEF#32),
    TRef.unary (.of main_cst_2) main_call0.v0 id,
    TRef.unary main_call0.v0 main_call0.v1 (broadcastInDim S4000000x5 ![] bcast_S_S4000000x5),
    TRef.binary main_call0.v1 (.of main_v30) main_call0.v2 maximumf,
    TRef.unary (.of main_cst_3) main_call0.v3 id,
    TRef.unary main_call0.v3 main_call0.v4 (broadcastInDim S4000000x5 ![] bcast_S_S4000000x5),
    TRef.binary main_call0.v4 main_call0.v2 main_call0.v5 minimumf,
    nullary main_cst_4 (constant S_ .f32 0x3F800000#32),
    unary main_cst_4 main_v32 (broadcastInDim S4000000x5 ![] bcast_S_S4000000x5 : (⟨S_, .f32⟩ : BufTy).Contents (Elt F) → (⟨S4000000x5, .f32⟩ : BufTy).Contents (Elt F)),
    binary main_v32 main_v31 main_v33 (subf : (⟨S4000000x5, .f32⟩ : BufTy).Contents (Elt F) → (⟨S4000000x5, .f32⟩ : BufTy).Contents (Elt F) → (⟨S4000000x5, .f32⟩ : BufTy).Contents (Elt F)),
    binary main_v31 main_v33 main_v34 (Host.divf : (⟨S4000000x5, .f32⟩ : BufTy).Contents (Elt F) → (⟨S4000000x5, .f32⟩ : BufTy).Contents (Elt F) → (⟨S4000000x5, .f32⟩ : BufTy).Contents (Elt F)),
    unary main_v34 main_v35 (Host.log : (⟨S4000000x5, .f32⟩ : BufTy).Contents (Elt F) → (⟨S4000000x5, .f32⟩ : BufTy).Contents (Elt F)),
    nullary main_cst_5 (constant S_ .f32 0x3F800000#32),
    unary main_cst_5 main_v36 (broadcastInDim S4000000x5 ![] bcast_S_S4000000x5 : (⟨S_, .f32⟩ : BufTy).Contents (Elt F) → (⟨S4000000x5, .f32⟩ : BufTy).Contents (Elt F)),
    binary main_v36 main_v35 main_v37 (mulf : (⟨S4000000x5, .f32⟩ : BufTy).Contents (Elt F) → (⟨S4000000x5, .f32⟩ : BufTy).Contents (Elt F) → (⟨S4000000x5, .f32⟩ : BufTy).Contents (Elt F)),
    unary main_arg0 main_v38 ((extractStridedSlice S4000000x10 ![0, 0] · slices_S4000000x16_S4000000x10_0_0) : (⟨S4000000x16, .f32⟩ : BufTy).Contents (Elt F) → (⟨S4000000x10, .f32⟩ : BufTy).Contents (Elt F)),
    binary main_v38 main_v37 main_v39 ((fun a b => concatenate S4000000x15 1 [⟨S4000000x10, a⟩, ⟨S4000000x5, b⟩] concatenates_S4000000x10_S4000000x5_S4000000x15_d1) : (⟨S4000000x10, .f32⟩ : BufTy).Contents (Elt F) → (⟨S4000000x5, .f32⟩ : BufTy).Contents (Elt F) → (⟨S4000000x15, .f32⟩ : BufTy).Contents (Elt F)) ]

set_option maxRecDepth 4096 in
/-- @main is that straight line: the clipping function's body unfolded at its call, the sequencing reassociated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., ternary_bufs_sub ..,
    unary_bufs_sub .., binary_bufs_sub .., unary_bufs_sub .., nullary_bufs_sub .., binary_bufs_sub .., unary_bufs_sub ..,
    unary_bufs_sub .., binary_bufs_sub .., unary_bufs_sub .., reshape_bufs_sub .., unary_bufs_sub .., reshape_bufs_sub ..,
    unary_bufs_sub .., reshape_bufs_sub .., unary_bufs_sub .., reshape_bufs_sub .., binary_bufs_sub .., binary_bufs_sub ..,
    binary_bufs_sub .., binary_bufs_sub .., binary_bufs_sub .., binary_bufs_sub .., binary_bufs_sub .., unary_bufs_sub ..,
    unary_bufs_sub .., unary_bufs_sub .., unary_bufs_sub .., unary_bufs_sub .., nary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    nullary_bufs_sub .., unary_bufs_sub .., binary_bufs_sub .., unary_bufs_sub .., binary_bufs_sub ..⟩

/-- Every weakly fair execution of @main terminates with every buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd Host.gather concatenate extractStridedSlice shapeCast broadcastInDim Host.exp Host.log Host.divf in
set_option maxRecDepth 8192 in
set_option maxHeartbeats 4000000 in
/-- At the result buffer the fold is the composed term of the argument's contents: the fold unrolled, each
    operation's result read at its own buffer and passed over at every other, the typed references' casts the
    identity; the array operations themselves are kept folded, the equation never looks inside them. -/
theorem out_eq (V : Valuation τ sig (Elt F)) :
    after ops V (main_v39 : DevRef τ sig) = Term.refOut (V (main_arg0 : DevRef τ sig)) := by
  simp only [after_cons, after_nil]
  rfl

/-- No operation writes the argument's buffer. -/
theorem arg0_eq (V : Valuation τ sig (Elt F)) :
    after ops V (main_arg0 : DevRef τ sig) = V (main_arg0 : DevRef τ sig) := by
  simp only [after_cons, after_nil]
  rfl

/-- Every weakly fair execution of @main terminates with the result at `Term.refOut` of the argument as launched,
    and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = Term.refOut (m ((c.tc : Thread nD τ).loc main_arg0))
      ∧ r.2.mem ((c.tc : Thread nD τ).loc main_arg0) = m ((c.tc : Thread nD τ).loc main_arg0) :=
  (θ_run defs _ _).mono (fun _ h c => ⟨(h c main_v39).trans (out_eq _), (h c main_arg0).trans (arg0_eq _)⟩)
    (run_fold m ρ)

end Cert.ReferenceIdeal.RefRun

end
-- ==== Proof.RefValue.lean ====
/-
  The reference's composed term, read index by index at the extended reals: at `(r, q)` it is `Spec.outRow` of
  row `r` of the argument at `q`, so the whole term is `Spec.G` of the argument.

  The steps follow the term's stages: the start-index table holds 10, 11, 12, 13; the gather at it reads column
  `10 + k`; the exponentials, their row sum from zero, the quotient; each weight as a vector over the rows; the three
  further ratios; the five ratios as columns side by side; the clipped logit entrywise; and the first ten columns
  of the argument next to the five logits.
-/
import proofs.«118689_j11544872092147_1_alg».proof.Proof.RefTerm
import proofs.«118689_j11544872092147_1_alg».proof.Proof.Spec
import proofs.«118689_j11544872092147_1_alg».proof.Proof.LibCols
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Term Idealize.ShloMosaic Idealize.ShloMosaic.ValueIdx
open Cert.Spec Cert.LibCols

/-! ## The selected columns -/

/-- Entry `k` of the start-index table is entry `k` of the literal table: the mask of the select is all zero. -/
theorem cols_apply (k : Fin 4) : cols (ix2 k (0 : Fin 1)) = lit0 k := by
  unfold cols
  refine (broadcastInDim_apply _ _ _ (ix2 k (0 : Fin 1)) (ix1 k) ?_).trans ?_
  · intro a
    match a with
    | ⟨0, _⟩ => rfl
  refine (select_apply _ _ _ (ix1 k)).trans ?_
  refine (select_zero _ _).trans ?_
  show lit0 (S4.rowMajor (ix1 k)) = lit0 k
  exact congrArg lit0 (Fin.ext (Shape.rowMajor_val_one (ix1 k)))

variable (x : FVec Ideal S4000000x16 .f32) (r : Fin 4000000)

/-- The gather at the table reads, at `(r, k)`, column `10 + k` of row `r`: on the row axis the result's own row (an
    offset axis, no start), on the column axis the start index read from the table and clamped into `[0, 15]`. -/
theorem gather_apply (k : Fin 4) :
    Host.gather gather_S4000000x16_S4x1_S4000000x4_0_1_n_n_1_1_40000001 x cols (ix2 r k) = x (ix2 r ⟨10 + k.val, by omega⟩) := by
  unfold Host.gather
  refine congrArg x ?_
  funext a
  refine Fin.ext ?_
  match a with
  | ⟨0, _⟩ =>
    show gather_S4000000x16_S4x1_S4000000x4_0_1_n_n_1_1_40000001.start (ix2 r k) cols 0 + gather_S4000000x16_S4x1_S4000000x4_0_1_n_n_1_1_40000001.batchCoord (ix2 r k) 0 + gather_S4000000x16_S4x1_S4000000x4_0_1_n_n_1_1_40000001.offCoord (ix2 r k) 0 = r.val
    rw [GatherDims.batchCoord_eq_zero _ _ _ List.not_mem_nil]
    unfold GatherDims.start
    rw [dif_neg (by decide)]
    unfold GatherDims.offCoord
    rw [dif_pos (by decide)]
    have he : ∀ (n : Nat) (hn : n < gather_S4000000x16_S4x1_S4000000x4_0_1_n_n_1_1_40000001.offsetDims.length), gather_S4000000x16_S4x1_S4000000x4_0_1_n_n_1_1_40000001.offsetDims[n] = (0 : Fin 2) :=
      fun n hn => List.mem_singleton.mp (List.getElem_mem hn)
    rw [he]
    show 0 + 0 + r.val = r.val
    omega
  | ⟨1, _⟩ =>
    show gather_S4000000x16_S4x1_S4000000x4_0_1_n_n_1_1_40000001.start (ix2 r k) cols 1 + gather_S4000000x16_S4x1_S4000000x4_0_1_n_n_1_1_40000001.batchCoord (ix2 r k) 1 + gather_S4000000x16_S4x1_S4000000x4_0_1_n_n_1_1_40000001.offCoord (ix2 r k) 1 = 10 + k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4000000x16_S4x1_S4000000x4_0_1_n_n_1_1_40000001.startIndexMap from List.mem_singleton.mpr rfl)]
    have hsi : gather_S4000000x16_S4x1_S4000000x4_0_1_n_n_1_1_40000001.siIdx (ix2 r k)
        ⟨List.idxOf (1 : Fin 2) gather_S4000000x16_S4x1_S4000000x4_0_1_n_n_1_1_40000001.startIndexMap, List.idxOf_lt_length_iff.2 (List.mem_singleton.mpr rfl)⟩
        = ix2 k (0 : Fin 1) := by
      funext b
      refine Fin.ext ?_
      match b with
      | ⟨0, _⟩ => rfl
      | ⟨1, _⟩ => rfl
    rw [hsi, cols_apply]
    match k with
    | ⟨0, _⟩ => rfl
    | ⟨1, _⟩ => rfl
    | ⟨2, _⟩ => rfl
    | ⟨3, _⟩ => rfl

/-! ## The weights -/

/-- The host's quotient, entry by entry. -/
theorem hostDivf_apply {s : Shape} (a b : FVec Ideal s .f32) (i : s.Idx) : Host.divf a b i = Ideal.div (a i) (b i) := rfl

theorem expSel_apply (k : Fin 4) : expSel x (ix2 r k) = ex (rowOf x r) k := by
  unfold expSel
  exact congrArg Ideal.exp (gather_apply x r k)

/-- The row sum from the initial value zero is the sum of the four exponentials. -/
theorem total_apply : total x (ix1 r) = tot (rowOf x r) := by
  unfold total Host.reduceAdd
  refine (Ideal.hostReduceAdd_single reducesTo_S4000000x4_S4000000_d1 (by decide : S4000000x4.Reduces [1] S4000000)
    (expSel x) _ (ix1 r)).trans ?_
  show Ideal.ofBits .f32 0x00000000#32 + _ = _
  rw [Ideal.ofBits_zero_f32, zero_add]
  refine Finset.sum_congr rfl fun k _ => ?_
  refine Eq.trans (congrArg (expSel x) ?_) (expSel_apply x r k)
  funext a
  match a with
  | ⟨0, _⟩ => exact Fin.ext rfl
  | ⟨1, _⟩ => exact Fin.ext rfl

theorem weights_apply (k : Fin 4) : weights x (ix2 r k) = sm (rowOf x r) k := by
  unfold weights sm
  refine (hostDivf_apply _ _ _).trans ?_
  refine congrArg₂ Ideal.div (expSel_apply x r k) ?_
  refine (broadcastInDim_apply _ _ _ (ix2 r k) (ix2 r (0 : Fin 1)) ?_).trans ?_
  · intro a
    match a with
    | ⟨0, _⟩ => rfl
    | ⟨1, _⟩ => rfl
  refine (broadcastInDim_apply _ _ _ (ix2 r (0 : Fin 1)) (ix1 r) ?_).trans ?_
  · intro a
    match a with
    | ⟨0, _⟩ => rfl
  exact total_apply x r

/-- A one-column slice of the weights reshaped to a vector over the rows, read at row `r`. -/
theorem wcol_apply (k : Fin 4) (hs : S4000000x4.Slices ![0, k.val] S4000000x1) (hc : S4000000x1.ShapeCasts S4000000) :
    shapeCast S4000000 (extractStridedSlice S4000000x1 ![0, k.val] (weights x) hs) hc (ix1 r) = sm (rowOf x r) k := by
  refine (shapeCast_apply _ _ (ix1 r) (ix2 r (0 : Fin 1)) ?_).trans ?_
  · rw [Shape.rowMajor_val_one, Shape.rowMajor_val_two]
    show r.val * 1 + 0 = r.val
    omega
  exact (slice2_axis1_apply k.val (weights x) hs r (0 : Fin 1) k (by simp)).trans (weights_apply x r k)

theorem w0_apply : w0 x (ix1 r) = sm (rowOf x r) 0 := wcol_apply x r 0 _ _
theorem w1_apply : w1 x (ix1 r) = sm (rowOf x r) 1 := wcol_apply x r 1 _ _
theorem w2_apply : w2 x (ix1 r) = sm (rowOf x r) 2 := wcol_apply x r 2 _ _
theorem w3_apply : w3 x (ix1 r) = sm (rowOf x r) 3 := wcol_apply x r 3 _ _

/-! ## The five ratios -/

theorem q2_apply : q2 x (ix1 r) = r2 (rowOf x r) := by
  unfold q2 r2
  rw [hostDivf_apply, addf_apply, w1_apply, w0_apply]
theorem q3_apply : q3 x (ix1 r) = r3 (rowOf x r) := by
  unfold q3 r3
  rw [hostDivf_apply, addf_apply, addf_apply, w1_apply, w2_apply, w3_apply]
theorem q4_apply : q4 x (ix1 r) = r4 (rowOf x r) := by
  unfold q4 r4
  rw [hostDivf_apply, addf_apply, w3_apply, w2_apply]

theorem col_apply (v : FVec Ideal S4000000 .f32) : col v (ix2 r (0 : Fin 1)) = v (ix1 r) := by
  unfold col
  refine broadcastInDim_apply _ _ _ (ix2 r (0 : Fin 1)) (ix1 r) ?_
  intro a
  match a with
  | ⟨0, _⟩ => rfl

theorem ratios_apply (k : Fin 5) : ratios x (ix2 r k) = ratio (rowOf x r) k := by
  unfold ratios
  refine (cat5_apply (n := 4000000) _ _ _ _ _ _ r k).trans ?_
  match k with
  | ⟨0, _⟩ => exact (col_apply r _).trans (w0_apply x r)
  | ⟨1, _⟩ => exact (col_apply r _).trans (w1_apply x r)
  | ⟨2, _⟩ => exact (col_apply r _).trans (q2_apply x r)
  | ⟨3, _⟩ => exact (col_apply r _).trans (q3_apply x r)
  | ⟨4, _⟩ => exact (col_apply r _).trans (q4_apply x r)

/-! ## The logits and the result -/

/-- Clipping and the logit act entry by entry. -/
theorem logits_apply (i : S4000000x5.Idx) : logits x i = logit (ratios x i) := rfl

theorem refOut_apply (q : Fin 15) : refOut x (ix2 r q) = outRow (rowOf x r) q := by
  unfold refOut
  by_cases hq : q.val < 10
  · rw [outRow_lt _ _ hq]
    refine (cat2_left (n := 4000000) (a := 10) (b := 5) (c := 15) _ _ _ r q ⟨q.val, hq⟩ rfl).trans ?_
    exact slice2_axis1_apply 0 x _ r (⟨q.val, hq⟩ : Fin 10) ⟨q.val, by omega⟩ (by simp)
  · obtain ⟨k, hk⟩ : ∃ k : Fin 5, q.val = 10 + k.val := ⟨⟨q.val - 10, by omega⟩, by simp only []; omega⟩
    rw [outRow_ge _ _ k hk]
    refine (cat2_right (n := 4000000) (a := 10) (b := 5) (c := 15) _ _ _ r q k (by omega)).trans ?_
    rw [logits_apply, ratios_apply]

/-- THE REFERENCE: its composed term is `Spec.G` of the argument. -/
theorem refOut_eq : refOut x = G x := by
  funext i
  obtain ⟨r, q, rfl⟩ : ∃ (r : Fin 4000000) (q : Fin 15), i = ix2 r q := ⟨_, _, eq_ix2 i⟩
  exact refOut_apply x r q

end Cert.ReferenceIdeal.RefValue

end
-- ==== Proof.lean ====
/-
  The kernel against its reference, over the extended reals.

  Both programs take `x : [4000000, 16]` to `[4000000, 15]` one row at a time (`Spec.outRow`): the first ten
  columns are copied; from columns 10..13 the four exponentials `e k`, their sum `T` and the weights `s k = e k / T`
  are formed; and columns 10..14 of the result are the logits `1 · log (a / (1 - a))`, `a` the clipping into
  `[lo, hi]`, of `s 0`, `s 1`, `s 1 / (s 1 + s 0)`, `s 1 / ((s 1 + s 2) + s 3)` and `s 3 / (s 3 + s 2)`.
  The two programs write the same operations in the same order on the same literals, so no law of the extended
  reals beyond reading a four-term sum and a sum from zero is used, and the inputs' finiteness is never opened.

  The kernel reads the row from a block of 8000 rows (a slice of four columns, a lane sum, one-column blocks
  laid side by side) over a grid of 500 points whose blocks cover the output; the reference reads it from the whole
  array (a gather at the constant columns 10, 11, 12, 13, a host sum from zero, vectors over the rows stacked as
  columns). `KernelValue.run` and `RefRun.run` with `RefValue.refOut_eq` state both results as `Spec.G` of the
  argument.
-/
import proofs.«118689_j11544872092147_1_alg».proof.Defs
import proofs.«118689_j11544872092147_1_alg».proof.Proof.Gen.Kernel
import proofs.«118689_j11544872092147_1_alg».proof.Proof.Gen.Kernel.Skeleton
import proofs.«118689_j11544872092147_1_alg».proof.Proof.Gen.Kernel.Launch
import proofs.«118689_j11544872092147_1_alg».proof.Proof.Gen.Kernel.Points
import proofs.«118689_j11544872092147_1_alg».proof.Proof.Gen.Kernel.Frame
import proofs.«118689_j11544872092147_1_alg».proof.Proof.Gen.KernelIdeal
import proofs.«118689_j11544872092147_1_alg».proof.Proof.Gen.KernelIdeal.Skeleton
import proofs.«118689_j11544872092147_1_alg».proof.Proof.Gen.KernelIdeal.Launch
import proofs.«118689_j11544872092147_1_alg».proof.Proof.Gen.KernelIdeal.Points
import proofs.«118689_j11544872092147_1_alg».proof.Proof.Gen.KernelIdeal.Frame
import proofs.«118689_j11544872092147_1_alg».proof.Proof.Gen.KernelIdeal.Value
import proofs.«118689_j11544872092147_1_alg».proof.Proof.Gen.ReferenceIdeal
import proofs.«118689_j11544872092147_1_alg».proof.Proof.Gen.Pre_finite_inputs
import proofs.«118689_j11544872092147_1_alg».proof.Proof.KernelValue
import proofs.«118689_j11544872092147_1_alg».proof.Proof.RefRun
import proofs.«118689_j11544872092147_1_alg».proof.Proof.RefValue
import Idealize.ShloMosaic.Adequacy
import Idealize.ShloMosaic.Init

noncomputable section

namespace Cert.Proof

open Idealize.ShloMosaic Idealize.SL.Sem

/-- The kernel as printed terminates without a fault and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From memories that agree on the argument both programs end with the result at `Spec.G` of it. -/
theorem algebraic : Cert.algebraic_KernelIdeal_ReferenceIdeal := by
  intro m ρ m' ρ' _ hagree
  refine ⟨fun c => Cert.Spec.G (n := 4000000) (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
